-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S500x7 : Shape := ⟨2, ![500, 7]⟩
abbrev S7 : Shape := ⟨1, ![7]⟩
abbrev S3300000 : Shape := ⟨1, ![3300000]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x7 : S_.BroadcastsInDim S500x7 (![] : Fin 0 → Fin S500x7.rank)
  reducesTo_S500x7_S_d0_1 : S500x7.ReducesTo [0, 1] S_
  bcast_S_S7 : S_.BroadcastsInDim S7 (![] : Fin 0 → Fin S7.rank)
  reducesTo_S7_S_d0 : S7.ReducesTo [0] S_

variable [Facts]

def fn {F : FTy → Type} [FloatOps F] (main_arg0 : FVec F S100000x500 .f32) (main_arg1 : FVec F S500x7 .f32) (main_arg2 : FVec F S7 .f32) (main_arg3 : IVec S3300000 32) (main_arg4 : IVec S3300000 32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x7 .f32 := Host.absf main_arg1
  let main_cst_0 : FVec F S_ .f32 := constant S_ .f32 0x7F800000#32
  let main_v5 : FVec F S500x7 .f32 := broadcastInDim S500x7 ![] bcast_S_S500x7 main_cst_0
  let main_v6 : IVec S500x7 1 := cmpf .olt main_v4 main_v5
  let main_c_1 : IVec S_ 1 := constantI S_ 1 1#1
  let main_v7 : IVec S_ 1 := (fun x v => Host.reduce IntOp.andi x v reducesTo_S500x7_S_d0_1 h_S_) main_v6 main_c_1
  let main_v8 : IVec S_ 1 := andi main_v3 main_v7
  let main_v9 : FVec F S7 .f32 := Host.absf main_arg2
  let main_cst_2 : FVec F S_ .f32 := constant S_ .f32 0x7F800000#32
  let main_v10 : FVec F S7 .f32 := broadcastInDim S7 ![] bcast_S_S7 main_cst_2
  let main_v11 : IVec S7 1 := cmpf .olt main_v9 main_v10
  let main_c_3 : IVec S_ 1 := constantI S_ 1 1#1
  let main_v12 : IVec S_ 1 := (fun x v => Host.reduce IntOp.andi x v reducesTo_S7_S_d0 h_S_) main_v11 main_c_3
  let main_v13 : IVec S_ 1 := andi main_v8 main_v12
  main_v13
-- ==== Kernel.lean ====
abbrev S100000x500 : Shape := ⟨2, ![100000, 500]⟩
abbrev S500x7 : Shape := ⟨2, ![500, 7]⟩
abbrev S7 : Shape := ⟨1, ![7]⟩
abbrev S3300000 : Shape := ⟨1, ![3300000]⟩
abbrev S_ : Shape := ⟨0, ![]⟩
abbrev S100000 : Shape := ⟨1, ![100000]⟩
abbrev S3300000x1 : Shape := ⟨2, ![3300000, 1]⟩
abbrev S100000x1 : Shape := ⟨2, ![100000, 1]⟩
abbrev S100000x7 : Shape := ⟨2, ![100000, 7]⟩
abbrev S5000x500 : Shape := ⟨2, ![5000, 500]⟩
abbrev S5000x1 : Shape := ⟨2, ![5000, 1]⟩
abbrev S5000x7 : Shape := ⟨2, ![5000, 7]⟩
abbrev S3300000x7 : Shape := ⟨2, ![3300000, 7]⟩
abbrev S1x7 : Shape := ⟨2, ![1, 7]⟩

abbrev nBuf : Space → Nat
  | .hbm => 46
  | .vmem => 14
  | .smem => 0
  | _ => 0

abbrev bufTy : (tb : Table) → Fin (tcTables nBuf tb) → BufTy
  | .hbm, ⟨0, _⟩ => ⟨S100000x500, .f32⟩
  | .hbm, ⟨1, _⟩ => ⟨S500x7, .f32⟩
  | .hbm, ⟨2, _⟩ => ⟨S7, .f32⟩
  | .hbm, ⟨3, _⟩ => ⟨S3300000, .i32⟩
  | .hbm, ⟨4, _⟩ => ⟨S3300000, .i32⟩
  | .hbm, ⟨5, _⟩ => ⟨S_, .f32⟩
  | .hbm, ⟨6, _⟩ => ⟨S3300000, .f32⟩
  | .hbm, ⟨7, _⟩ => ⟨S_, .f32⟩
  | .hbm, ⟨8, _⟩ => ⟨S100000, .f32⟩
  | .hbm, ⟨9, _⟩ => ⟨S3300000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S3300000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x7, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000x7, .f32⟩
  | .hbm, ⟨40, _⟩ => ⟨S_, .f32⟩
  | .hbm, ⟨41, _⟩ => ⟨S100000x7, .f32⟩
  | .hbm, ⟨42, _⟩ => ⟨S3300000x1, .i32⟩
  | .hbm, ⟨43, _⟩ => ⟨S100000x7, .f32⟩
  | .hbm, ⟨44, _⟩ => ⟨S100000x1, .f32⟩
  | .hbm, ⟨45, _⟩ => ⟨S100000x7, .f32⟩
  | .local _ .vmem, ⟨0, _⟩ => ⟨S5000x500, .f32⟩
  | .local _ .vmem, ⟨1, _⟩ => ⟨S5000x500, .f32⟩
  | .local _ .vmem, ⟨2, _⟩ => ⟨S500x7, .f32⟩
  | .local _ .vmem, ⟨3, _⟩ => ⟨S5000x1, .f32⟩
  | .local _ .vmem, ⟨4, _⟩ => ⟨S5000x1, .f32⟩
  | .local _ .vmem, ⟨5, _⟩ => ⟨S5000x7, .f32⟩
  | .local _ .vmem, ⟨6, _⟩ => ⟨S5000x7, .f32⟩
  | .local _ .vmem, ⟨7, _⟩ => ⟨S5000x7, .f32⟩
  | .local _ .vmem, ⟨8, _⟩ => ⟨S5000x7, .f32⟩
  | .local _ .vmem, ⟨9, _⟩ => ⟨S5000x1, .f32⟩
  | .local _ .vmem, ⟨10, _⟩ => ⟨S5000x1, .f32⟩
  | .local _ .vmem, ⟨11, _⟩ => ⟨S7, .f32⟩
  | .local _ .vmem, ⟨12, _⟩ => ⟨S5000x7, .f32⟩
  | .local _ .vmem, ⟨13, _⟩ => ⟨S5000x7, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x7 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x500_S5000x500_0_0 : ∀ a, (![0, 0] : Fin 2 → Nat) a + S5000x500.size a ≤ S5000x500.size a
  h_S5000x500 : 0 < S5000x500.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x500 : S5000x1.Broadcasts S5000x500
  bitsLt_bf16_f32 : FTy.bits .bf16 < FTy.bits .f32
  inb_S500x7_S500x7_0_0 : ∀ a, (![0, 0] : Fin 2 → Nat) a + S500x7.size a ≤ S500x7.size a
  h_S500x7 : 0 < S500x7.numel
  inb_S5000x7_S5000x7_0_0 : ∀ a, (![0, 0] : Fin 2 → Nat) a + S5000x7.size a ≤ S5000x7.size a
  h_S5000x7 : 0 < S5000x7.numel
  bcast_S_S100000x7 : S_.BroadcastsInDim S100000x7 (![] : Fin 0 → Fin S100000x7.rank)
  inb_S7_S7_0 : ∀ a, (![0] : Fin 1 → Nat) a + S7.size a ≤ S7.size a
  h_S7 : 0 < S7.numel
  shapeCasts_S7_S1x7 : S7.ShapeCasts S1x7
  shapeCasts_S5000x7_S5000x7 : S5000x7.ShapeCasts S5000x7
  broadcasts_S5000x1_S5000x7 : S5000x1.Broadcasts S5000x7
  broadcasts_S1x7_S5000x7 : S1x7.Broadcasts S5000x7
  scatter_S100000_S3300000x1_S3300000_n_0_0_1_wf : ScatterDims.WF S100000 S3300000x1 S3300000 [] [0] [0] 1
  dot_S5000x500_S500x7_S5000x7_1_0_0_1_n_n_wf : DotDims.WF S5000x500 S500x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x500.size a ≤ S100000x500.size a
  hwx0_0 : ∀ i : grid0.Coords, EltTy.bits .f32 = 32 ∨ (Rect.block (s := S100000x500) S5000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x7.size a ≤ S500x7.size a
  hwx0_1 : ∀ i : grid0.Coords, EltTy.bits .f32 = 32 ∨ (Rect.block (s := S500x7) S500x7.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x7.size a ≤ S100000x7.size a
  hwx0_3 : ∀ i : grid0.Coords, EltTy.bits .f32 = 32 ∨ (Rect.block (s := S100000x7) S5000x7.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x7.size a ≤ S100000x7.size a
  hwx1_0 : ∀ i : grid1.Coords, EltTy.bits .f32 = 32 ∨ (Rect.block (s := S100000x7) S5000x7.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S7.size a ≤ S7.size a
  hwx1_2 : ∀ i : grid1.Coords, EltTy.bits .f32 = 32 ∨ (Rect.block (s := S7) S7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x7.size a ≤ S100000x7.size a
  hwx1_3 : ∀ i : grid1.Coords, EltTy.bits .f32 = 32 ∨ (Rect.block (s := S100000x7) S5000x7.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x500_S500x7_S5000x7_1_0_0_1_n_n : DotDims S5000x500 S500x7 S5000x7 where
  lhsContracting := [1]
  rhsContracting := [0]
  lhsNonContracting := [0]
  rhsNonContracting := [1]
  lhsBatch := []
  rhsBatch := []
  wf := dot_S5000x500_S500x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S500x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x7.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x7.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x500 : Shape := ⟨2, ![100000, 500]⟩
abbrev S500x7 : Shape := ⟨2, ![500, 7]⟩
abbrev S7 : Shape := ⟨1, ![7]⟩
abbrev S3300000 : Shape := ⟨1, ![3300000]⟩
abbrev S_ : Shape := ⟨0, ![]⟩
abbrev S100000 : Shape := ⟨1, ![100000]⟩
abbrev S3300000x1 : Shape := ⟨2, ![3300000, 1]⟩
abbrev S100000x1 : Shape := ⟨2, ![100000, 1]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 52
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S500x7, .f32⟩
  | .hbm, ⟨2, _⟩ => ⟨S7, .f32⟩
  | .hbm, ⟨3, _⟩ => ⟨S3300000, .i32⟩
  | .hbm, ⟨4, _⟩ => ⟨S3300000, .i32⟩
  | .hbm, ⟨5, _⟩ => ⟨S_, .f32⟩
  | .hbm, ⟨6, _⟩ => ⟨S3300000, .f32⟩
  | .hbm, ⟨7, _⟩ => ⟨S_, .f32⟩
  | .hbm, ⟨8, _⟩ => ⟨S100000, .f32⟩
  | .hbm, ⟨9, _⟩ => ⟨S3300000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S3300000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x500, .f32⟩
  | .hbm, ⟨31, _⟩ => ⟨S100000x500, .f32⟩
  | .hbm, ⟨32, _⟩ => ⟨S100000x7, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000x7, .f32⟩
  | .hbm, ⟨42, _⟩ => ⟨S_, .f32⟩
  | .hbm, ⟨43, _⟩ => ⟨S100000x7, .f32⟩
  | .hbm, ⟨44, _⟩ => ⟨S3300000x1, .i32⟩
  | .hbm, ⟨45, _⟩ => ⟨S100000x7, .f32⟩
  | .hbm, ⟨46, _⟩ => ⟨S100000x1, .f32⟩
  | .hbm, ⟨47, _⟩ => ⟨S100000x7, .f32⟩
  | .hbm, ⟨48, _⟩ => ⟨S100000x7, .f32⟩
  | .hbm, ⟨49, _⟩ => ⟨S1x7, .f32⟩
  | .hbm, ⟨50, _⟩ => ⟨S100000x7, .f32⟩
  | .hbm, ⟨51, _⟩ => ⟨S100000x7, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  bcast_S100000x1_S100000x500_0_1 : S100000x1.BroadcastsInDim S100000x500 (![0, 1] : Fin 2 → Fin S100000x500.rank)
  bcast_S_S100000x7 : S_.BroadcastsInDim S100000x7 (![] : Fin 0 → Fin S100000x7.rank)
  bcast_S100000x1_S100000x7_0_1 : S100000x1.BroadcastsInDim S100000x7 (![0, 1] : Fin 2 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  dot_S100000x500_S500x7_S100000x7_1_0_0_1_n_n_wf : DotDims.WF S100000x500 S500x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x500_S500x7_S100000x7_1_0_0_1_n_n : DotDims S100000x500 S500x7 S100000x7 where
  lhsContracting := [1]
  rhsContracting := [0]
  lhsNonContracting := [0]
  rhsNonContracting := [1]
  lhsBatch := []
  rhsBatch := []
  wf := dot_S100000x500_S500x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.FeatTile.lean ====
/-
  The first kernel's tile and the host's product, each read at one entry.
  A tile of 5000 rows holds, at row r and column c, the sum over k of (x(r,k) · n(r)) · w(k,c): the row's scale n(r)
  is broadcast along the 500 lanes before the product, the two narrowings to bf16 are the identity on extended
  reals, and the product into the zero accumulator is the plain sum. The host's dot_general of (h · n broadcast
  along the lanes) with w, read at (r, c), is the same sum over k with the whole arrays' row r in place of the
  tile's.
-/
import proofs.«167073_j90331752169729_1_alg».proof.Proof.Gen.KernelIdeal.Skeleton
import proofs.«167073_j90331752169729_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Feat

open Cert.KernelIdeal Cert.KernelIdeal.Gen Idealize.ShloMosaic Idealize.ShloMosaic.TcCoe Idealize.SL.Sem

/-! ## Entries of a tile and of the whole arrays named by row, lane and column -/

/-- Entry (r, k) of a [5000, 500] tile, r the row of the output entry `j`. -/
abbrev tileRowLane (j : S5000x7.Idx) (k : Fin 500) : S5000x500.Idx := fun a => match a with
  | ⟨0, _⟩ => ⟨(j 0).val, (j 0).isLt⟩
  | ⟨1, _⟩ => ⟨k.val, k.isLt⟩
/-- Entry (k, c) of the [500, 7] weight, c the column of the output entry `j`. -/
abbrev tileLaneCol (j : S5000x7.Idx) (k : Fin 500) : S500x7.Idx := fun a => match a with
  | ⟨0, _⟩ => ⟨k.val, k.isLt⟩
  | ⟨1, _⟩ => ⟨(j 1).val, (j 1).isLt⟩
/-- Entry (r, 0) of a [5000, 1] column of row scales. -/
abbrev tileRowScale (j : S5000x7.Idx) : S5000x1.Idx := fun a => match a with
  | ⟨0, _⟩ => ⟨(j 0).val, (j 0).isLt⟩
  | ⟨1, _⟩ => ⟨0, Nat.one_pos⟩

/-- Entry (r, k) of the [100000, 500] array. -/
abbrev rowLane (i : S100000x7.Idx) (k : Fin 500) : S100000x500.Idx := fun a => match a with
  | ⟨0, _⟩ => ⟨(i 0).val, (i 0).isLt⟩
  | ⟨1, _⟩ => ⟨k.val, k.isLt⟩
/-- Entry (k, c) of the weight, from an entry of the [100000, 7] result. -/
abbrev laneCol (i : S100000x7.Idx) (k : Fin 500) : S500x7.Idx := fun a => match a with
  | ⟨0, _⟩ => ⟨k.val, k.isLt⟩
  | ⟨1, _⟩ => ⟨(i 1).val, (i 1).isLt⟩
/-- Entry (r, 0) of the [100000, 1] column of row scales. -/
abbrev rowScale (i : S100000x7.Idx) : S100000x1.Idx := fun a => match a with
  | ⟨0, _⟩ => ⟨(i 0).val, (i 0).isLt⟩
  | ⟨1, _⟩ => ⟨0, Nat.one_pos⟩

/-! ## The tile's product -/

theorem tileDot_lhs_0 (j : S5000x7.Idx) (q : dot_S5000x500_S500x7_S5000x7_1_0_0_1_n_n.contr.Idx) :
    (dot_S5000x500_S500x7_S5000x7_1_0_0_1_n_n.lhsIdx j q 0).val = (j 0).val := by
  unfold DotDims.lhsIdx
  rw [dif_neg (show ¬(0 : Fin S5000x500.rank) ∈ dot_S5000x500_S500x7_S5000x7_1_0_0_1_n_n.lhsBatch by decide), dif_pos (show (0 : Fin S5000x500.rank) ∈ dot_S5000x500_S500x7_S5000x7_1_0_0_1_n_n.lhsNonContracting by decide)]
  rfl
theorem tileDot_lhs_1 (j : S5000x7.Idx) (q : dot_S5000x500_S500x7_S5000x7_1_0_0_1_n_n.contr.Idx) :
    (dot_S5000x500_S500x7_S5000x7_1_0_0_1_n_n.lhsIdx j q 1).val = (q ⟨0, by decide⟩).val :=
  dot_S5000x500_S500x7_S5000x7_1_0_0_1_n_n.lhsIdx_val_of_single rfl j q
theorem tileDot_rhs_0 (j : S5000x7.Idx) (q : dot_S5000x500_S500x7_S5000x7_1_0_0_1_n_n.contr.Idx) :
    (dot_S5000x500_S500x7_S5000x7_1_0_0_1_n_n.rhsIdx j q 0).val = (q ⟨0, by decide⟩).val :=
  dot_S5000x500_S500x7_S5000x7_1_0_0_1_n_n.rhsIdx_val_of_single rfl j q
theorem tileDot_rhs_1 (j : S5000x7.Idx) (q : dot_S5000x500_S500x7_S5000x7_1_0_0_1_n_n.contr.Idx) :
    (dot_S5000x500_S500x7_S5000x7_1_0_0_1_n_n.rhsIdx j q 1).val = (j 1).val := by
  unfold DotDims.rhsIdx
  rw [dif_neg (show ¬(1 : Fin S500x7.rank) ∈ dot_S5000x500_S500x7_S5000x7_1_0_0_1_n_n.rhsBatch by decide), dif_pos (show (1 : Fin S500x7.rank) ∈ dot_S5000x500_S500x7_S5000x7_1_0_0_1_n_n.rhsNonContracting by decide)]
  rfl

/-- The scale column broadcast along the lanes, read at (r, k), is n(r). -/
theorem scale_along_lanes (x2 : Vec Ideal S5000x1 .f32) (j : S5000x7.Idx) (k : Fin 500) :
    broadcastTo S5000x500 (shapeCast S5000x1 x2 Facts₀.shapeCasts_S5000x1_S5000x1) Facts₀.broadcasts_S5000x1_S5000x500 (tileRowLane j k)
      = x2 (tileRowScale j) := by
  rw [shapeCast_self]
  exact broadcastTo_apply x2 _ (tileRowLane j k) (tileRowScale j) (fun a => match a with
    | ⟨0, _⟩ => by show (j 0).val = if (5000 : Nat) = 1 then 0 else (j 0).val; rw [if_neg (by decide)]
    | ⟨1, _⟩ => by show 0 = if (1 : Nat) = 1 then 0 else k.val; rw [if_pos rfl])

/-- THE TILE: what the first kernel stores at entry `j` = (r, c) of its output tile, from the tile `x0` of h, the
    column `x2` of row scales and the weight `x1`. -/
theorem tile_apply (x0 : Vec Ideal S5000x500 .f32) (x2 : Vec Ideal S5000x1 .f32) (x1 : Vec Ideal S500x7 .f32) (j : S5000x7.Idx) :
    k0_pay1 (F := Ideal) x0 x2 x1 j = ∑ k : Fin 500, (x0 (tileRowLane j k) * x2 (tileRowScale j)) * x1 (tileLaneCol j k) := by
  unfold k0_pay1
  simp only [matmul]
  rw [Ideal.matmul_constant_zero_apply, ← Equiv.sum_comp (ValueIdx.contrEquiv1 dot_S5000x500_S500x7_S5000x7_1_0_0_1_n_n 500 rfl rfl).symm]
  refine Finset.sum_congr rfl fun k _ => ?_
  have hk := ValueIdx.contrEquiv1_symm_val dot_S5000x500_S500x7_S5000x7_1_0_0_1_n_n 500 rfl rfl k
  have el : dot_S5000x500_S500x7_S5000x7_1_0_0_1_n_n.lhsIdx j ((ValueIdx.contrEquiv1 dot_S5000x500_S500x7_S5000x7_1_0_0_1_n_n 500 rfl rfl).symm k) = tileRowLane j k := funext fun a => Fin.ext (by
    match a with
    | ⟨0, _⟩ => exact tileDot_lhs_0 _ _
    | ⟨1, _⟩ => exact (tileDot_lhs_1 _ _).trans hk)
  have er : dot_S5000x500_S500x7_S5000x7_1_0_0_1_n_n.rhsIdx j ((ValueIdx.contrEquiv1 dot_S5000x500_S500x7_S5000x7_1_0_0_1_n_n 500 rfl rfl).symm k) = tileLaneCol j k := funext fun a => Fin.ext (by
    match a with
    | ⟨0, _⟩ => exact (tileDot_rhs_0 _ _).trans hk
    | ⟨1, _⟩ => exact tileDot_rhs_1 _ _)
  rw [el, er]
  show (x0 (tileRowLane j k) * broadcastTo S5000x500 (shapeCast S5000x1 x2 Facts₀.shapeCasts_S5000x1_S5000x1) Facts₀.broadcasts_S5000x1_S5000x500 (tileRowLane j k)) * x1 (tileLaneCol j k) = _
  rw [scale_along_lanes]

/-! ## The host's product -/

theorem hostDot_lhs_0 (i : S100000x7.Idx) (q : Cert.ReferenceIdeal.dot_S100000x500_S500x7_S100000x7_1_0_0_1_n_n.contr.Idx) :
    (Cert.ReferenceIdeal.dot_S100000x500_S500x7_S100000x7_1_0_0_1_n_n.lhsIdx i q 0).val = (i 0).val := by
  unfold DotDims.lhsIdx
  rw [dif_neg (show ¬(0 : Fin S100000x500.rank) ∈ Cert.ReferenceIdeal.dot_S100000x500_S500x7_S100000x7_1_0_0_1_n_n.lhsBatch by decide), dif_pos (show (0 : Fin S100000x500.rank) ∈ Cert.ReferenceIdeal.dot_S100000x500_S500x7_S100000x7_1_0_0_1_n_n.lhsNonContracting by decide)]
  rfl
theorem hostDot_lhs_1 (i : S100000x7.Idx) (q : Cert.ReferenceIdeal.dot_S100000x500_S500x7_S100000x7_1_0_0_1_n_n.contr.Idx) :
    (Cert.ReferenceIdeal.dot_S100000x500_S500x7_S100000x7_1_0_0_1_n_n.lhsIdx i q 1).val = (q ⟨0, by decide⟩).val :=
  Cert.ReferenceIdeal.dot_S100000x500_S500x7_S100000x7_1_0_0_1_n_n.lhsIdx_val_of_single rfl i q
theorem hostDot_rhs_0 (i : S100000x7.Idx) (q : Cert.ReferenceIdeal.dot_S100000x500_S500x7_S100000x7_1_0_0_1_n_n.contr.Idx) :
    (Cert.ReferenceIdeal.dot_S100000x500_S500x7_S100000x7_1_0_0_1_n_n.rhsIdx i q 0).val = (q ⟨0, by decide⟩).val :=
  Cert.ReferenceIdeal.dot_S100000x500_S500x7_S100000x7_1_0_0_1_n_n.rhsIdx_val_of_single rfl i q
theorem hostDot_rhs_1 (i : S100000x7.Idx) (q : Cert.ReferenceIdeal.dot_S100000x500_S500x7_S100000x7_1_0_0_1_n_n.contr.Idx) :
    (Cert.ReferenceIdeal.dot_S100000x500_S500x7_S100000x7_1_0_0_1_n_n.rhsIdx i q 1).val = (i 1).val := by
  unfold DotDims.rhsIdx
  rw [dif_neg (show ¬(1 : Fin S500x7.rank) ∈ Cert.ReferenceIdeal.dot_S100000x500_S500x7_S100000x7_1_0_0_1_n_n.rhsBatch by decide), dif_pos (show (1 : Fin S500x7.rank) ∈ Cert.ReferenceIdeal.dot_S100000x500_S500x7_S100000x7_1_0_0_1_n_n.rhsNonContracting by decide)]
  rfl

/-- The transformed features as the host computes them: (h · n, n broadcast along the lanes) times w. -/
def featOf (h : FVec Ideal S100000x500 .f32) (w : FVec Ideal S500x7 .f32)
    (ncol : FVec Ideal S100000x1 .f32) : FVec Ideal S100000x7 .f32 :=
  Host.dotGeneral (F := Ideal) Cert.ReferenceIdeal.dot_S100000x500_S500x7_S100000x7_1_0_0_1_n_n none
    (mulf (F := Ideal) h (broadcastInDim S100000x500 ![0, 1] Cert.ReferenceIdeal.Gen.bcast_S100000x1_S100000x500_0_1 ncol)) w

/-- The column of row scales broadcast along the lanes, read at (r, k), is n(r). -/
theorem hostScale_along_lanes (ncol : FVec Ideal S100000x1 .f32) (i : S100000x7.Idx) (k : Fin 500) :
    broadcastInDim S100000x500 ![0, 1] Cert.ReferenceIdeal.Gen.bcast_S100000x1_S100000x500_0_1 ncol (rowLane i k) = ncol (rowScale i) :=
  broadcastInDim_apply _ Cert.ReferenceIdeal.Gen.bcast_S100000x1_S100000x500_0_1 ncol (rowLane i k) (rowScale i) (fun a => match a with
    | ⟨0, _⟩ => by show (i 0).val = if (100000 : Nat) = 1 then 0 else (i 0).val; rw [if_neg (by decide)]
    | ⟨1, _⟩ => by show 0 = if (1 : Nat) = 1 then 0 else k.val; rw [if_pos rfl])

/-- THE HOST'S ENTRY (r, c): the sum over k of (h(r,k) · n(r)) · w(k,c). -/
theorem featOf_apply (h : FVec Ideal S100000x500 .f32) (w : FVec Ideal S500x7 .f32)
    (ncol : FVec Ideal S100000x1 .f32) (i : S100000x7.Idx) :
    featOf h w ncol i = ∑ k : Fin 500, (h (rowLane i k) * ncol (rowScale i)) * w (laneCol i k) := by
  unfold featOf
  simp only [Host.dotGeneral]
  rw [Ideal.dotGeneral_apply, ← Equiv.sum_comp (ValueIdx.contrEquiv1 Cert.ReferenceIdeal.dot_S100000x500_S500x7_S100000x7_1_0_0_1_n_n 500 rfl rfl).symm]
  refine Finset.sum_congr rfl fun k _ => ?_
  have hk := ValueIdx.contrEquiv1_symm_val Cert.ReferenceIdeal.dot_S100000x500_S500x7_S100000x7_1_0_0_1_n_n 500 rfl rfl k
  have el : Cert.ReferenceIdeal.dot_S100000x500_S500x7_S100000x7_1_0_0_1_n_n.lhsIdx i ((ValueIdx.contrEquiv1 Cert.ReferenceIdeal.dot_S100000x500_S500x7_S100000x7_1_0_0_1_n_n 500 rfl rfl).symm k) = rowLane i k := funext fun a => Fin.ext (by
    match a with
    | ⟨0, _⟩ => exact hostDot_lhs_0 _ _
    | ⟨1, _⟩ => exact (hostDot_lhs_1 _ _).trans hk)
  have er : Cert.ReferenceIdeal.dot_S100000x500_S500x7_S100000x7_1_0_0_1_n_n.rhsIdx i ((ValueIdx.contrEquiv1 Cert.ReferenceIdeal.dot_S100000x500_S500x7_S100000x7_1_0_0_1_n_n 500 rfl rfl).symm k) = laneCol i k := funext fun a => Fin.ext (by
    match a with
    | ⟨0, _⟩ => exact (hostDot_rhs_0 _ _).trans hk
    | ⟨1, _⟩ => exact hostDot_rhs_1 _ _)
  rw [el, er]
  show (h (rowLane i k) * broadcastInDim S100000x500 ![0, 1] Cert.ReferenceIdeal.Gen.bcast_S100000x1_S100000x500_0_1 ncol (rowLane i k)) * w (laneCol i k) = _
  rw [hostScale_along_lanes]

end Cert.KernelIdeal.Feat

end
-- ==== Proof.FeatArray.lean ====
/-
  The first region's result array: every row tile written back is the tile of ONE function of the whole arrays.
  Grid point t reads rows 5000·t … 5000·t + 4999 of h and of the column of row scales and the whole weight, and writes
  rows 5000·t … of the result; entry (r, c) of what it writes is the sum over k of (h(r,k) · n(r)) · w(k,c) with r the
  row in the WHOLE array, which is the host's product read at (r, c). The twenty tiles cover the 100000 rows (row r
  is in tile r / 5000), so the array the region leaves is that product.
-/
import proofs.«167073_j90331752169729_1_alg».proof.Proof.Gen.KernelIdeal.Frame
import proofs.«167073_j90331752169729_1_alg».proof.Proof.FeatTile
import Idealize.ShloMosaic.Lib.Pipeline.Value

set_option maxRecDepth 16384

noncomputable section

namespace Cert.KernelIdeal.Feat

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The arrays the first region reads, as it finds them, at their literal types. -/
abbrev hArr (c : Dev nD) : FVec Ideal S100000x500 .f32 := V c main_arg0
abbrev wArr (c : Dev nD) : FVec Ideal S500x7 .f32 := V c main_arg1
abbrev nArr (c : Dev nD) : FVec Ideal S100000x1 .f32 := V c main_v13

theorem zeros2 : (![0, 0] : Fin 2 → Nat) = fun _ => 0 := funext fun a => by fin_cases a <;> rfl

/-- The printed index maps over the twenty grid points: h's tile, the scale column's tile and the result's tile sit at
    row block t, column block 0; the weight is always its one block. -/
theorem tile_positions : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 19 :=
  (by decide +kernel : ∀ t : Fin grid0.N, _)

/-- Every row block 0 … 19 is some grid point's. -/
theorem tile_onto : ∀ q : Fin 20, ∃ t : Fin cfg0.N, win0_3.index t = ![q.val, 0] :=
  (by decide +kernel : ∀ q : Fin 20, ∃ t : Fin grid0.N, win0_3.index t = ![q.val, 0])

/-- WHAT POINT `t` WRITES BACK is tile `t` of the host's product of the arrays as the region finds them. -/
theorem flushed_eq (c : Dev nD) (t : Fin cfg0.N) :
    (dat0 V c).flushed 3 t
      = ((cfg0.win 3).blk t).view.read (Elt Ideal) (featOf (hArr V c) (wArr V c) (nArr V c)) := by
  show (cfg0.win 3).cut (grid0.coords t) ((dat0 V c).after 3 t) = _
  rw [after0_3]
  unfold out0_3
  rw [View.canon_unit_zero zeros2]
  simp only [View.ld_unit_zero (S := S5000x500) zeros2, View.ld_unit_zero (S := S500x7) zeros2, View.ld_unit_zero (S := S5000x1) zeros2]
  obtain ⟨e0, e1, e2, e3, e4, e5, e6, e7⟩ := tile_positions t
  funext j
  show k0_pay1 (F := Ideal) (iblk0 V c 0 t) (iblk0 V c 2 t) (iblk0 V c 1 t) j
    = featOf (hArr V c) (wArr V c) (nArr V c) (((cfg0.win 3).blk t).view.emb j)
  refine (tile_apply (iblk0 V c 0 t) (iblk0 V c 2 t) (iblk0 V c 1 t) j).trans ?_
  refine Eq.trans ?_ (featOf_apply (hArr V c) (wArr V c) (nArr V c) (((cfg0.win 3).blk t).view.emb j)).symm
  refine Finset.sum_congr rfl fun k _ => ?_
  have hj0 : (j 0).val < 5000 := (j 0).isLt
  have hj1 : (j 1).val < 7 := (j 1).isLt
  have hk : k.val < 500 := k.isLt
  have h0 : ((cfg0.win 0).blk t).view.emb (tileRowLane j k) = rowLane (((cfg0.win 3).blk t).view.emb j) k := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 500 + 1 * k.val = k.val; omega
  have h1 : ((cfg0.win 1).blk t).view.emb (tileLaneCol j k) = laneCol (((cfg0.win 3).blk t).view.emb j) k := by
    funext a; apply Fin.ext
    match a with
    | ⟨0, _⟩ => show win0_1.index t (0 : Fin 2) * 500 + 1 * k.val = k.val; omega
    | ⟨1, _⟩ => show win0_1.index t (1 : Fin 2) * 7 + 1 * (j 1).val = win0_3.index t (1 : Fin 2) * 7 + 1 * (j 1).val; omega
  have h2 : ((cfg0.win 2).blk t).view.emb (tileRowScale j) = rowScale (((cfg0.win 3).blk t).view.emb j) := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  show (hArr V c (((cfg0.win 0).blk t).view.emb (tileRowLane j k)) * nArr V c (((cfg0.win 2).blk t).view.emb (tileRowScale j)))
      * wArr V c (((cfg0.win 1).blk t).view.emb (tileLaneCol j k)) = _
  rw [h0, h1, h2]

/-- An entry of the result is in point `t`'s tile iff each coordinate is in the tile's range on its axis. -/
theorem mem_tile (t : Fin cfg0.N) (i : S100000x7.Idx) :
    i ∈ ((cfg0.win 3).blk t).view.set ↔ ∀ a : Fin 2, win0_3.index t a * S5000x7.size a ≤ (i a).val ∧ (i a).val < win0_3.index t a * S5000x7.size a + S5000x7.size a := by
  show i ∈ ((View.whole main_v14).slice (win0_3.rect t)).set ↔ _
  rw [View.set_slice_whole, Rect.mem_set_unit]
  exact Iff.rfl

/-- The tiles cover the result: row r is in tile r / 5000. -/
theorem tiles_cover (i : S100000x7.Idx) :
    ∃ t : Fin cfg0.N, (cfg0.win 3).flush t = true ∧ i ∈ ((cfg0.win 3).blk t).view.set := by
  have hi0 : (i 0).val < 100000 := (i 0).isLt
  have hi1 : (i 1).val < 7 := (i 1).isLt
  obtain ⟨t, ht⟩ := tile_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_tile]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 7 ≤ (i 1).val ∧ (i 1).val < win0_3.index t (1 : Fin 2) * 7 + 7; omega

/-- THE ARRAY the first region leaves: the host's product of the arrays it found. -/
theorem feat_array (c : Dev nD) :
    (dat0 V c).arrAt 3 cfg0.N = featOf (hArr V c) (wArr V c) (nArr V c) :=
  (dat0 V c).arrAt_eq_of_cover 3 (featOf (hArr V c) (wArr V c) (nArr V c))
    (fun t _ => flushed_eq V c t) tiles_cover

end Cert.KernelIdeal.Feat

end
-- ==== Proof.OutTile.lean ====
/-
  The second kernel's tile and the host's last three operations, each read at one entry.
  A tile of 5000 rows holds, at row r and column c, a(r,c) · n(r) + b(c): the row's scale is broadcast along the 7
  columns, the bias vector is recast as a [1, 7] row and broadcast down the rows. The host's
  agg · (n broadcast along the columns) + (b broadcast down the rows), read at (r, c), is the same expression of the
  whole arrays.
-/
import proofs.«167073_j90331752169729_1_alg».proof.Proof.Gen.KernelIdeal.Skeleton
import proofs.«167073_j90331752169729_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Out

open Cert.KernelIdeal Cert.KernelIdeal.Gen Idealize.ShloMosaic Idealize.ShloMosaic.TcCoe Idealize.SL.Sem

/-! ## Entries named by row and column -/

/-- Entry (r, 0) of a [5000, 1] column of row scales, r the row of the tile entry `j`. -/
abbrev tileRowScale (j : S5000x7.Idx) : S5000x1.Idx := fun a => match a with
  | ⟨0, _⟩ => ⟨(j 0).val, (j 0).isLt⟩
  | ⟨1, _⟩ => ⟨0, Nat.one_pos⟩
/-- Entry c of the bias vector, c the column of the tile entry `j`. -/
abbrev tileBias (j : S5000x7.Idx) : S7.Idx := fun a => match a with
  | ⟨0, _⟩ => ⟨(j 1).val, (j 1).isLt⟩
/-- Entry (0, c) of the bias recast as a [1, 7] row. -/
abbrev tileBiasRow (j : S5000x7.Idx) : S1x7.Idx := fun a => match a with
  | ⟨0, _⟩ => ⟨0, Nat.one_pos⟩
  | ⟨1, _⟩ => ⟨(j 1).val, (j 1).isLt⟩

/-- Entry (r, 0) of the [100000, 1] column of row scales. -/
abbrev rowScale (i : S100000x7.Idx) : S100000x1.Idx := fun a => match a with
  | ⟨0, _⟩ => ⟨(i 0).val, (i 0).isLt⟩
  | ⟨1, _⟩ => ⟨0, Nat.one_pos⟩
/-- Entry c of the bias vector, from an entry of the [100000, 7] result. -/
abbrev biasAt (i : S100000x7.Idx) : S7.Idx := fun a => match a with
  | ⟨0, _⟩ => ⟨(i 1).val, (i 1).isLt⟩
/-- Entry (0, c) of the bias as a [1, 7] row. -/
abbrev biasRowAt (i : S100000x7.Idx) : S1x7.Idx := fun a => match a with
  | ⟨0, _⟩ => ⟨0, Nat.one_pos⟩
  | ⟨1, _⟩ => ⟨(i 1).val, (i 1).isLt⟩

/-! ## The tile -/

/-- The scale column broadcast along the columns, read at (r, c), is n(r). -/
theorem scale_along_cols (x1 : Vec Ideal S5000x1 .f32) (j : S5000x7.Idx) :
    broadcastTo S5000x7 (shapeCast S5000x1 x1 Facts₀.shapeCasts_S5000x1_S5000x1) Facts₀.broadcasts_S5000x1_S5000x7 j
      = x1 (tileRowScale j) := by
  rw [shapeCast_self]
  exact broadcastTo_apply x1 _ j (tileRowScale j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])

/-- The bias recast as a row and broadcast down the rows, read at (r, c), is b(c). -/
theorem bias_down_rows (x2 : Vec Ideal S7 .f32) (j : S5000x7.Idx) :
    broadcastTo S5000x7 (shapeCast S1x7 x2 Facts₀.shapeCasts_S7_S1x7) Facts₀.broadcasts_S1x7_S5000x7 j = x2 (tileBias j) := by
  rw [broadcastTo_apply (shapeCast S1x7 x2 Facts₀.shapeCasts_S7_S1x7) _ j (tileBiasRow j) (fun a => match a with
    | ⟨0, _⟩ => by show 0 = if (1 : Nat) = 1 then 0 else (j 0).val; rw [if_pos rfl]
    | ⟨1, _⟩ => by show (j 1).val = if (7 : Nat) = 1 then 0 else (j 1).val; rw [if_neg (by decide)])]
  refine shapeCast_apply x2 _ (tileBiasRow j) (tileBias j) ?_
  rw [Shape.rowMajor_val_one, Shape.rowMajor_val_two]
  show (j 1).val = 0 * 7 + (j 1).val
  omega

/-- THE TILE: what the second kernel stores at entry `j` = (r, c), from the bias `x2`, the tile `x0` of aggregated
    features and the column `x1` of row scales. -/
theorem tile_apply (x2 : Vec Ideal S7 .f32) (x0 : Vec Ideal S5000x7 .f32) (x1 : Vec Ideal S5000x1 .f32) (j : S5000x7.Idx) :
    k1_pay1 (F := Ideal) x2 x0 x1 j = x0 j * x1 (tileRowScale j) + x2 (tileBias j) := by
  unfold k1_pay1
  show (shapeCast S5000x7 x0 Facts₀.shapeCasts_S5000x7_S5000x7 j
        * broadcastTo S5000x7 (shapeCast S5000x1 x1 Facts₀.shapeCasts_S5000x1_S5000x1) Facts₀.broadcasts_S5000x1_S5000x7 j)
      + broadcastTo S5000x7 (shapeCast S1x7 x2 Facts₀.shapeCasts_S7_S1x7) Facts₀.broadcasts_S1x7_S5000x7 j = _
  rw [shapeCast_self, scale_along_cols, bias_down_rows]

/-! ## The host's last three operations -/

/-- The output as the host computes it: agg · (n along the columns) + (b down the rows). -/
def outOf (agg : FVec Ideal S100000x7 .f32) (ncol : FVec Ideal S100000x1 .f32) (b : FVec Ideal S7 .f32) : FVec Ideal S100000x7 .f32 :=
  addf (F := Ideal) (mulf (F := Ideal) agg (broadcastInDim S100000x7 ![0, 1] Cert.ReferenceIdeal.Gen.bcast_S100000x1_S100000x7_0_1 ncol))
    (broadcastInDim S100000x7 ![0, 1] Cert.ReferenceIdeal.Gen.bcast_S1x7_S100000x7_0_1
      (broadcastInDim S1x7 ![1] Cert.ReferenceIdeal.Gen.bcast_S7_S1x7_1 b))

theorem hostScale_along_cols (ncol : FVec Ideal S100000x1 .f32) (i : S100000x7.Idx) :
    broadcastInDim S100000x7 ![0, 1] Cert.ReferenceIdeal.Gen.bcast_S100000x1_S100000x7_0_1 ncol i = ncol (rowScale i) :=
  broadcastInDim_apply _ Cert.ReferenceIdeal.Gen.bcast_S100000x1_S100000x7_0_1 ncol i (rowScale i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

theorem hostBias_down_rows (b : FVec Ideal S7 .f32) (i : S100000x7.Idx) :
    broadcastInDim S100000x7 ![0, 1] Cert.ReferenceIdeal.Gen.bcast_S1x7_S100000x7_0_1
      (broadcastInDim S1x7 ![1] Cert.ReferenceIdeal.Gen.bcast_S7_S1x7_1 b) i = b (biasAt i) := by
  rw [broadcastInDim_apply _ Cert.ReferenceIdeal.Gen.bcast_S1x7_S100000x7_0_1 _ i (biasRowAt i) (fun a => match a with
    | ⟨0, _⟩ => by show 0 = if (1 : Nat) = 1 then 0 else (i 0).val; rw [if_pos rfl]
    | ⟨1, _⟩ => by show (i 1).val = if (7 : Nat) = 1 then 0 else (i 1).val; rw [if_neg (by decide)])]
  exact broadcastInDim_apply _ Cert.ReferenceIdeal.Gen.bcast_S7_S1x7_1 b (biasRowAt i) (biasAt i) (fun a => match a with
    | ⟨0, _⟩ => by show (i 1).val = if (7 : Nat) = 1 then 0 else (i 1).val; rw [if_neg (by decide)])

/-- THE HOST'S ENTRY (r, c): agg(r,c) · n(r) + b(c). -/
theorem outOf_apply (agg : FVec Ideal S100000x7 .f32) (ncol : FVec Ideal S100000x1 .f32) (b : FVec Ideal S7 .f32) (i : S100000x7.Idx) :
    outOf agg ncol b i = agg i * ncol (rowScale i) + b (biasAt i) := by
  unfold outOf
  show (agg i * broadcastInDim S100000x7 ![0, 1] Cert.ReferenceIdeal.Gen.bcast_S100000x1_S100000x7_0_1 ncol i)
      + broadcastInDim S100000x7 ![0, 1] Cert.ReferenceIdeal.Gen.bcast_S1x7_S100000x7_0_1
          (broadcastInDim S1x7 ![1] Cert.ReferenceIdeal.Gen.bcast_S7_S1x7_1 b) i = _
  rw [hostScale_along_cols, hostBias_down_rows]

end Cert.KernelIdeal.Out

end
-- ==== Proof.OutArray.lean ====
/-
  The second region's result array: every row tile written back is the tile of ONE function of the whole arrays.
  Grid point t reads rows 5000·t … 5000·t + 4999 of the aggregated features and of the column of row scales and the
  whole bias, and writes the same rows of the result; entry (r, c) of what it writes is agg(r,c) · n(r) + b(c) with r
  the row in the WHOLE array, the host's last three operations read at (r, c). The twenty tiles cover the rows.
-/
import proofs.«167073_j90331752169729_1_alg».proof.Proof.Gen.KernelIdeal.Frame
import proofs.«167073_j90331752169729_1_alg».proof.Proof.OutTile
import Idealize.ShloMosaic.Lib.Pipeline.Value

set_option maxRecDepth 16384

noncomputable section

namespace Cert.KernelIdeal.Out

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The arrays the second region reads, as it finds them, at their literal types. -/
abbrev aggArr (c : Dev nD) : FVec Ideal S100000x7 .f32 := V c main_v24
abbrev nArr (c : Dev nD) : FVec Ideal S100000x1 .f32 := V c main_v25
abbrev bArr (c : Dev nD) : FVec Ideal S7 .f32 := V c main_arg2

theorem zeros2 : (![0, 0] : Fin 2 → Nat) = fun _ => 0 := funext fun a => by fin_cases a <;> rfl
theorem zeros1 : (![0] : Fin 1 → Nat) = fun _ => 0 := funext fun a => by fin_cases a; rfl

/-- The printed index maps over the twenty grid points: the aggregated features' tile, the scale column's tile and the
    result's tile sit at row block t, column block 0; the bias is always its one block. -/
theorem tile_positions : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 1) = 0
    ∧ win1_3.index t (1 : Fin 2) = 0
    ∧ win1_3.index t (0 : Fin 2) ≤ 19 :=
  (by decide +kernel : ∀ t : Fin grid1.N, _)

/-- Every row block 0 … 19 is some grid point's. -/
theorem tile_onto : ∀ q : Fin 20, ∃ t : Fin cfg1.N, win1_3.index t = ![q.val, 0] :=
  (by decide +kernel : ∀ q : Fin 20, ∃ t : Fin grid1.N, win1_3.index t = ![q.val, 0])

/-- WHAT POINT `t` WRITES BACK is tile `t` of the host's last three operations on the arrays as the region finds them. -/
theorem flushed_eq (c : Dev nD) (t : Fin cfg1.N) :
    (dat1 V c).flushed 3 t
      = ((cfg1.win 3).blk t).view.read (Elt Ideal) (outOf (aggArr V c) (nArr V c) (bArr V c)) := by
  show (cfg1.win 3).cut (grid1.coords t) ((dat1 V c).after 3 t) = _
  rw [after1_3]
  unfold out1_3
  rw [View.canon_unit_zero zeros2]
  simp only [View.ld_unit_zero (S := S5000x7) zeros2, View.ld_unit_zero (S := S5000x1) zeros2, View.ld_unit_zero (S := S7) zeros1]
  obtain ⟨e0, e1, e2, e3, e4, e5, e6⟩ := tile_positions t
  funext j
  show k1_pay1 (F := Ideal) (iblk1 V c 2 t) (iblk1 V c 0 t) (iblk1 V c 1 t) j
    = outOf (aggArr V c) (nArr V c) (bArr V c) (((cfg1.win 3).blk t).view.emb j)
  refine (tile_apply (iblk1 V c 2 t) (iblk1 V c 0 t) (iblk1 V c 1 t) j).trans ?_
  refine Eq.trans ?_ (outOf_apply (aggArr V c) (nArr V c) (bArr V c) (((cfg1.win 3).blk t).view.emb j)).symm
  have hj0 : (j 0).val < 5000 := (j 0).isLt
  have hj1 : (j 1).val < 7 := (j 1).isLt
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 7 + 1 * (j 1).val = win1_3.index t (1 : Fin 2) * 7 + 1 * (j 1).val; omega
  have h1 : ((cfg1.win 1).blk t).view.emb (tileRowScale j) = rowScale (((cfg1.win 3).blk t).view.emb j) := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  have h2 : ((cfg1.win 2).blk t).view.emb (tileBias j) = biasAt (((cfg1.win 3).blk t).view.emb j) := by
    funext a; apply Fin.ext
    match a with
    | ⟨0, _⟩ => show win1_2.index t (0 : Fin 1) * 7 + 1 * (j 1).val = win1_3.index t (1 : Fin 2) * 7 + 1 * (j 1).val; omega
  show aggArr V c (((cfg1.win 0).blk t).view.emb j) * nArr V c (((cfg1.win 1).blk t).view.emb (tileRowScale j))
      + bArr V c (((cfg1.win 2).blk t).view.emb (tileBias j)) = _
  rw [h0, h1, h2]

/-- An entry of the result is in point `t`'s tile iff each coordinate is in the tile's range on its axis. -/
theorem mem_tile (t : Fin cfg1.N) (i : S100000x7.Idx) :
    i ∈ ((cfg1.win 3).blk t).view.set ↔ ∀ a : Fin 2, win1_3.index t a * S5000x7.size a ≤ (i a).val ∧ (i a).val < win1_3.index t a * S5000x7.size a + S5000x7.size a := by
  show i ∈ ((View.whole main_v26).slice (win1_3.rect t)).set ↔ _
  rw [View.set_slice_whole, Rect.mem_set_unit]
  exact Iff.rfl

/-- The tiles cover the result: row r is in tile r / 5000. -/
theorem tiles_cover (i : S100000x7.Idx) :
    ∃ t : Fin cfg1.N, (cfg1.win 3).flush t = true ∧ i ∈ ((cfg1.win 3).blk t).view.set := by
  have hi0 : (i 0).val < 100000 := (i 0).isLt
  have hi1 : (i 1).val < 7 := (i 1).isLt
  obtain ⟨t, ht⟩ := tile_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_tile]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 7 ≤ (i 1).val ∧ (i 1).val < win1_3.index t (1 : Fin 2) * 7 + 7; omega

/-- THE ARRAY the second region leaves: the host's last three operations on the arrays it found. -/
theorem out_array (c : Dev nD) :
    (dat1 V c).arrAt 3 cfg1.N = outOf (aggArr V c) (nArr V c) (bArr V c) :=
  (dat1 V c).arrAt_eq_of_cover 3 (outOf (aggArr V c) (nArr V c) (bArr V c))
    (fun t _ => flushed_eq V c t) tiles_cover

end Cert.KernelIdeal.Out

end
-- ==== Proof.HostStretches.lean ====
/-
  The six stretches of host operations of the kernel's program, each read once from ARBITRARY contents W at its
  entry: what it leaves in the buffers later stretches, the regions or the result read, and which of the buffers it
  passes through untouched. Before the first region: the two edge counts (a scatter-add of ones into zeros, by sources
  and by targets), each clipped below at one and raised to the power −1/2, the sources' scales recast as a column.
  Between the regions: the negative source indices wrapped, the features' rows gathered at the sources and
  scatter-added at the targets, the targets' scales recast as a column.
-/
import proofs.«167073_j90331752169729_1_alg».proof.Proof.Gen.KernelIdeal.Launch
import Idealize.ShloMosaic.Lib.StableHlo.Run
import Idealize.ShloMosaic.PureOps.Ideal

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (W : Valuation τ sig (Elt Ideal))

/-! ## Before the first region -/

/-- The edge count by sources: ones scatter-added into zeros at the source indices. -/
theorem counts_sources : after hostOps0 W (Proc.devRef .tc main_v3)
    = Host.scatterAdd (F := Ideal) scatter_S100000_S3300000x1_S3300000_n_0_0_1
        (broadcastInDim S100000 ![] bcast_S_S100000 (constant (F := Ideal) S_ .f32 0x00000000#32))
        (broadcastInDim S3300000x1 ![0] bcast_S3300000_S3300000x1_0 (W (Proc.devRef .tc main_arg3)))
        (broadcastInDim S3300000 ![] bcast_S_S3300000 (constant (F := Ideal) S_ .f32 0x3F800000#32)) := by
  simp only [hostOps0]; after_results
/-- The edge count by targets. -/
theorem counts_targets : after hostOps0 W (Proc.devRef .tc main_v6)
    = Host.scatterAdd (F := Ideal) scatter_S100000_S3300000x1_S3300000_n_0_0_1
        (broadcastInDim S100000 ![] bcast_S_S100000 (constant (F := Ideal) S_ .f32 0x00000000#32))
        (broadcastInDim S3300000x1 ![0] bcast_S3300000_S3300000x1_0 (W (Proc.devRef .tc main_arg4)))
        (broadcastInDim S3300000 ![] bcast_S_S3300000 (constant (F := Ideal) S_ .f32 0x3F800000#32)) := by
  simp only [hostOps0]; after_results
theorem counts_one : after hostOps0 W (Proc.devRef .tc main_cst_2) = constant (F := Ideal) S_ .f32 0x3F800000#32 := by
  simp only [hostOps0]; after_results
theorem counts_keeps_arg0 : after hostOps0 W (Proc.devRef .tc main_arg0) = W (Proc.devRef .tc main_arg0) := by
  simp only [hostOps0]; after_results
theorem counts_keeps_arg1 : after hostOps0 W (Proc.devRef .tc main_arg1) = W (Proc.devRef .tc main_arg1) := by
  simp only [hostOps0]; after_results
theorem counts_keeps_arg2 : after hostOps0 W (Proc.devRef .tc main_arg2) = W (Proc.devRef .tc main_arg2) := by
  simp only [hostOps0]; after_results
theorem counts_keeps_arg3 : after hostOps0 W (Proc.devRef .tc main_arg3) = W (Proc.devRef .tc main_arg3) := by
  simp only [hostOps0]; after_results
theorem counts_keeps_arg4 : after hostOps0 W (Proc.devRef .tc main_arg4) = W (Proc.devRef .tc main_arg4) := by
  simp only [hostOps0]; after_results

/-- The sources' count clipped below at one. -/
theorem clip_sources : after hostOps0_1 W (Proc.devRef .tc main_v7)
    = maximumf (F := Ideal) (φ := .f32) (broadcastInDim S100000 ![] bcast_S_S100000 (id (W (Proc.devRef .tc main_cst_2)))) (W (Proc.devRef .tc main_v3)) := by
  simp only [hostOps0_1]; after_results; rfl
theorem clip_sources_keeps_v6 : after hostOps0_1 W (Proc.devRef .tc main_v6) = W (Proc.devRef .tc main_v6) := by
  simp only [hostOps0_1]; after_results
theorem clip_sources_keeps_arg0 : after hostOps0_1 W (Proc.devRef .tc main_arg0) = W (Proc.devRef .tc main_arg0) := by
  simp only [hostOps0_1]; after_results
theorem clip_sources_keeps_arg1 : after hostOps0_1 W (Proc.devRef .tc main_arg1) = W (Proc.devRef .tc main_arg1) := by
  simp only [hostOps0_1]; after_results
theorem clip_sources_keeps_arg2 : after hostOps0_1 W (Proc.devRef .tc main_arg2) = W (Proc.devRef .tc main_arg2) := by
  simp only [hostOps0_1]; after_results
theorem clip_sources_keeps_arg3 : after hostOps0_1 W (Proc.devRef .tc main_arg3) = W (Proc.devRef .tc main_arg3) := by
  simp only [hostOps0_1]; after_results
theorem clip_sources_keeps_arg4 : after hostOps0_1 W (Proc.devRef .tc main_arg4) = W (Proc.devRef .tc main_arg4) := by
  simp only [hostOps0_1]; after_results

/-- The sources' scales: the clipped count to the power −1/2. -/
theorem power_sources : after hostOps0_2 W (Proc.devRef .tc main_v9)
    = Host.powf (F := Ideal) (W (Proc.devRef .tc main_v7)) (broadcastInDim S100000 ![] bcast_S_S100000 (constant (F := Ideal) S_ .f32 0xBF000000#32)) := by
  simp only [hostOps0_2]; after_results
theorem power_sources_one : after hostOps0_2 W (Proc.devRef .tc main_cst_4) = constant (F := Ideal) S_ .f32 0x3F800000#32 := by
  simp only [hostOps0_2]; after_results
theorem power_sources_keeps_v6 : after hostOps0_2 W (Proc.devRef .tc main_v6) = W (Proc.devRef .tc main_v6) := by
  simp only [hostOps0_2]; after_results
theorem power_sources_keeps_arg0 : after hostOps0_2 W (Proc.devRef .tc main_arg0) = W (Proc.devRef .tc main_arg0) := by
  simp only [hostOps0_2]; after_results
theorem power_sources_keeps_arg1 : after hostOps0_2 W (Proc.devRef .tc main_arg1) = W (Proc.devRef .tc main_arg1) := by
  simp only [hostOps0_2]; after_results
theorem power_sources_keeps_arg2 : after hostOps0_2 W (Proc.devRef .tc main_arg2) = W (Proc.devRef .tc main_arg2) := by
  simp only [hostOps0_2]; after_results
theorem power_sources_keeps_arg3 : after hostOps0_2 W (Proc.devRef .tc main_arg3) = W (Proc.devRef .tc main_arg3) := by
  simp only [hostOps0_2]; after_results
theorem power_sources_keeps_arg4 : after hostOps0_2 W (Proc.devRef .tc main_arg4) = W (Proc.devRef .tc main_arg4) := by
  simp only [hostOps0_2]; after_results

/-- The targets' count clipped below at one. -/
theorem clip_targets : after hostOps0_3 W (Proc.devRef .tc main_v10)
    = maximumf (F := Ideal) (φ := .f32) (broadcastInDim S100000 ![] bcast_S_S100000 (id (W (Proc.devRef .tc main_cst_4)))) (W (Proc.devRef .tc main_v6)) := by
  simp only [hostOps0_3]; after_results; rfl
theorem clip_targets_keeps_v9 : after hostOps0_3 W (Proc.devRef .tc main_v9) = W (Proc.devRef .tc main_v9) := by
  simp only [hostOps0_3]; after_results
theorem clip_targets_keeps_arg0 : after hostOps0_3 W (Proc.devRef .tc main_arg0) = W (Proc.devRef .tc main_arg0) := by
  simp only [hostOps0_3]; after_results
theorem clip_targets_keeps_arg1 : after hostOps0_3 W (Proc.devRef .tc main_arg1) = W (Proc.devRef .tc main_arg1) := by
  simp only [hostOps0_3]; after_results
theorem clip_targets_keeps_arg2 : after hostOps0_3 W (Proc.devRef .tc main_arg2) = W (Proc.devRef .tc main_arg2) := by
  simp only [hostOps0_3]; after_results
theorem clip_targets_keeps_arg3 : after hostOps0_3 W (Proc.devRef .tc main_arg3) = W (Proc.devRef .tc main_arg3) := by
  simp only [hostOps0_3]; after_results
theorem clip_targets_keeps_arg4 : after hostOps0_3 W (Proc.devRef .tc main_arg4) = W (Proc.devRef .tc main_arg4) := by
  simp only [hostOps0_3]; after_results

/-- The targets' scales. -/
theorem power_targets : after hostOps0_4 W (Proc.devRef .tc main_v12)
    = Host.powf (F := Ideal) (W (Proc.devRef .tc main_v10)) (broadcastInDim S100000 ![] bcast_S_S100000 (constant (F := Ideal) S_ .f32 0xBF000000#32)) := by
  simp only [hostOps0_4]; after_results
/-- The sources' scales recast as a column. -/
theorem column_sources : after hostOps0_4 W (Proc.devRef .tc main_v13)
    = shapeCast S100000x1 (W (Proc.devRef .tc main_v9)) Facts₀.shapeCasts_S100000_S100000x1 := by
  simp only [hostOps0_4]; after_results; rfl
theorem power_targets_keeps_arg0 : after hostOps0_4 W (Proc.devRef .tc main_arg0) = W (Proc.devRef .tc main_arg0) := by
  simp only [hostOps0_4]; after_results
theorem power_targets_keeps_arg1 : after hostOps0_4 W (Proc.devRef .tc main_arg1) = W (Proc.devRef .tc main_arg1) := by
  simp only [hostOps0_4]; after_results
theorem power_targets_keeps_arg2 : after hostOps0_4 W (Proc.devRef .tc main_arg2) = W (Proc.devRef .tc main_arg2) := by
  simp only [hostOps0_4]; after_results
theorem power_targets_keeps_arg3 : after hostOps0_4 W (Proc.devRef .tc main_arg3) = W (Proc.devRef .tc main_arg3) := by
  simp only [hostOps0_4]; after_results
theorem power_targets_keeps_arg4 : after hostOps0_4 W (Proc.devRef .tc main_arg4) = W (Proc.devRef .tc main_arg4) := by
  simp only [hostOps0_4]; after_results

/-! ## Between the regions -/

/-- The aggregate: the features' rows gathered at the wrapped sources, scatter-added at the targets. -/
theorem aggregate : after hostOps1 W (Proc.devRef .tc main_v24)
    = Host.scatterAdd (F := Ideal) scatter_S100000x7_S3300000x1_S3300000x7_1_0_0_1
        (broadcastInDim S100000x7 ![] bcast_S_S100000x7 (constant (F := Ideal) S_ .f32 0x00000000#32))
        (broadcastInDim S3300000x1 ![0] bcast_S3300000_S3300000x1_0 (W (Proc.devRef .tc main_arg4)))
        (Host.gather gather_S100000x7_S3300000x1_S3300000x7_1_0_n_n_0_1_17 (W (Proc.devRef .tc main_v14))
          (broadcastInDim S3300000x1 ![0] bcast_S3300000_S3300000x1_0
            (select (cmpi .slt (W (Proc.devRef .tc main_arg3)) (broadcastInDim S3300000 ![] bcast_S_S3300000 (constantI S_ 32 0#32)))
              (addi (W (Proc.devRef .tc main_arg3)) (broadcastInDim S3300000 ![] bcast_S_S3300000 (constantI S_ 32 100000#32)))
              (W (Proc.devRef .tc main_arg3))))) := by
  simp only [hostOps1]; after_results
/-- The targets' scales recast as a column. -/
theorem column_targets : after hostOps1 W (Proc.devRef .tc main_v25)
    = shapeCast S100000x1 (W (Proc.devRef .tc main_v12)) Facts₀.shapeCasts_S100000_S100000x1 := by
  simp only [hostOps1]; after_results; rfl
theorem aggregate_keeps_arg2 : after hostOps1 W (Proc.devRef .tc main_arg2) = W (Proc.devRef .tc main_arg2) := by
  simp only [hostOps1]; after_results

end Cert.KernelIdeal.Chain

end
-- ==== Proof.HostChain.lean ====
/-
  The host operations around the two regions, read as functions of the arguments.
  From an index vector (the edges' sources, or their targets) the host counts, per node, the edges that name it
  (a scatter-add of ones into zeros), clips the count below at 1 and raises it to the power −1/2: the node's scale.
  Between the regions it wraps negative source indices by the number of nodes, gathers the transformed features' rows
  at the sources and scatter-adds them at the targets: the aggregated features.
  The buffers' contents at the regions' boundaries are folds of these operations over the launch memory; each
  buffer a region or the result reads is unfolded here once: the arguments are as launched, the first region finds
  the sources' scales as a column, its result is the transformed features, the second region finds their aggregate,
  the targets' scales as a column and the bias, and the result buffer ends at the host's last three operations of
  those.
-/
import proofs.«167073_j90331752169729_1_alg».proof.Proof.Gen.KernelIdeal.Frame
import proofs.«167073_j90331752169729_1_alg».proof.Proof.FeatArray
import proofs.«167073_j90331752169729_1_alg».proof.Proof.OutArray
import proofs.«167073_j90331752169729_1_alg».proof.Proof.HostStretches
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

/-! ## The shared host chain as functions -/

/-- A node's scale from the edges' endpoint indices: max(1, number of edges naming the node) ^ (−1/2). -/
def scaleOf (idx : (⟨S3300000, .i32⟩ : BufTy).Contents (Elt Ideal)) : FVec Ideal S100000 .f32 :=
  Host.powf (F := Ideal)
    (maximumf (F := Ideal) (broadcastInDim S100000 ![] bcast_S_S100000 (id (constant (F := Ideal) S_ .f32 0x3F800000#32)))
      (Host.scatterAdd (F := Ideal) scatter_S100000_S3300000x1_S3300000_n_0_0_1
        (broadcastInDim S100000 ![] bcast_S_S100000 (constant (F := Ideal) S_ .f32 0x00000000#32))
        (broadcastInDim S3300000x1 ![0] bcast_S3300000_S3300000x1_0 idx)
        (broadcastInDim S3300000 ![] bcast_S_S3300000 (constant (F := Ideal) S_ .f32 0x3F800000#32))))
    (broadcastInDim S100000 ![] bcast_S_S100000 (constant (F := Ideal) S_ .f32 0xBF000000#32))

/-- The scales as a [100000, 1] column. -/
def scaleCol (idx : (⟨S3300000, .i32⟩ : BufTy).Contents (Elt Ideal)) : FVec Ideal S100000x1 .f32 :=
  shapeCast S100000x1 (scaleOf idx) Facts₀.shapeCasts_S100000_S100000x1

/-- Source indices with the negative ones wrapped by the number of nodes. -/
def wrapIdx (src : (⟨S3300000, .i32⟩ : BufTy).Contents (Elt Ideal)) : (⟨S3300000, .i32⟩ : BufTy).Contents (Elt Ideal) :=
  select (cmpi .slt src (broadcastInDim S3300000 ![] bcast_S_S3300000 (constantI S_ 32 0#32)))
    (addi src (broadcastInDim S3300000 ![] bcast_S_S3300000 (constantI S_ 32 100000#32))) src

/-- The aggregate: the features' rows gathered at the sources, scatter-added at the targets. -/
def aggOf (feat : FVec Ideal S100000x7 .f32) (src dst : (⟨S3300000, .i32⟩ : BufTy).Contents (Elt Ideal)) : FVec Ideal S100000x7 .f32 :=
  Host.scatterAdd (F := Ideal) scatter_S100000x7_S3300000x1_S3300000x7_1_0_0_1
    (broadcastInDim S100000x7 ![] bcast_S_S100000x7 (constant (F := Ideal) S_ .f32 0x00000000#32))
    (broadcastInDim S3300000x1 ![0] bcast_S3300000_S3300000x1_0 dst)
    (Host.gather gather_S100000x7_S3300000x1_S3300000x7_1_0_n_n_0_1_17 feat
      (broadcastInDim S3300000x1 ![0] bcast_S3300000_S3300000x1_0 (wrapIdx src)))

variable (m : (ℓ : Loc nD τ sig) → Buf (Elt Ideal) ℓ) (ρ : Dev nD → PrngReg)

/-! ## The first region's entry: five stretches from the launch memory -/

theorem entry0_arg0 (c : Dev nD) : W5 m ρ c (Proc.devRef .tc main_arg0) = m ((c : Thread nD τ).loc main_arg0) := by
  show after hostOps0_4 (after hostOps0_3 (after hostOps0_2 (after hostOps0_1 (after hostOps0 (W0 m ρ c))))) (Proc.devRef .tc main_arg0) = _
  rw [power_targets_keeps_arg0, clip_targets_keeps_arg0, power_sources_keeps_arg0, clip_sources_keeps_arg0, counts_keeps_arg0]
theorem entry0_arg1 (c : Dev nD) : W5 m ρ c (Proc.devRef .tc main_arg1) = m ((c : Thread nD τ).loc main_arg1) := by
  show after hostOps0_4 (after hostOps0_3 (after hostOps0_2 (after hostOps0_1 (after hostOps0 (W0 m ρ c))))) (Proc.devRef .tc main_arg1) = _
  rw [power_targets_keeps_arg1, clip_targets_keeps_arg1, power_sources_keeps_arg1, clip_sources_keeps_arg1, counts_keeps_arg1]
theorem entry0_arg2 (c : Dev nD) : W5 m ρ c (Proc.devRef .tc main_arg2) = m ((c : Thread nD τ).loc main_arg2) := by
  show after hostOps0_4 (after hostOps0_3 (after hostOps0_2 (after hostOps0_1 (after hostOps0 (W0 m ρ c))))) (Proc.devRef .tc main_arg2) = _
  rw [power_targets_keeps_arg2, clip_targets_keeps_arg2, power_sources_keeps_arg2, clip_sources_keeps_arg2, counts_keeps_arg2]
theorem entry0_arg3 (c : Dev nD) : W5 m ρ c (Proc.devRef .tc main_arg3) = m ((c : Thread nD τ).loc main_arg3) := by
  show after hostOps0_4 (after hostOps0_3 (after hostOps0_2 (after hostOps0_1 (after hostOps0 (W0 m ρ c))))) (Proc.devRef .tc main_arg3) = _
  rw [power_targets_keeps_arg3, clip_targets_keeps_arg3, power_sources_keeps_arg3, clip_sources_keeps_arg3, counts_keeps_arg3]
theorem entry0_arg4 (c : Dev nD) : W5 m ρ c (Proc.devRef .tc main_arg4) = m ((c : Thread nD τ).loc main_arg4) := by
  show after hostOps0_4 (after hostOps0_3 (after hostOps0_2 (after hostOps0_1 (after hostOps0 (W0 m ρ c))))) (Proc.devRef .tc main_arg4) = _
  rw [power_targets_keeps_arg4, clip_targets_keeps_arg4, power_sources_keeps_arg4, clip_sources_keeps_arg4, counts_keeps_arg4]

/-- The sources' scales, as the column the first region reads. -/
theorem entry0_scales (c : Dev nD) :
    W5 m ρ c (Proc.devRef .tc main_v13) = scaleCol (m ((c : Thread nD τ).loc main_arg3)) := by
  show after hostOps0_4 (after hostOps0_3 (after hostOps0_2 (after hostOps0_1 (after hostOps0 (W0 m ρ c))))) (Proc.devRef .tc main_v13) = _
  rw [column_sources, clip_targets_keeps_v9, power_sources, clip_sources, counts_one, counts_sources]
  unfold scaleCol scaleOf
  rfl

/-- The targets' scales, computed before the first region. -/
theorem entry0_targetScales (c : Dev nD) :
    W5 m ρ c (Proc.devRef .tc main_v12) = scaleOf (m ((c : Thread nD τ).loc main_arg4)) := by
  show after hostOps0_4 (after hostOps0_3 (after hostOps0_2 (after hostOps0_1 (after hostOps0 (W0 m ρ c))))) (Proc.devRef .tc main_v12) = _
  rw [power_targets, clip_targets, power_sources_one, power_sources_keeps_v6, clip_sources_keeps_v6, counts_targets]
  unfold scaleOf
  rfl

/-! ## Through the first region -/

/-- The first region leaves the transformed features: the host's product of h, w and the sources' scales. -/
theorem exit0_feat (c : Dev nD) :
    W6 m ρ c (Proc.devRef .tc main_v14)
      = Feat.featOf (m ((c : Thread nD τ).loc main_arg0)) (m ((c : Thread nD τ).loc main_arg1)) (scaleCol (m ((c : Thread nD τ).loc main_arg3))) := by
  refine (W6_arr m ρ c 3).trans ((Feat.feat_array (V5 m ρ) c).trans ?_)
  show Feat.featOf (W5 m ρ c (Proc.devRef .tc main_arg0)) (W5 m ρ c (Proc.devRef .tc main_arg1)) (W5 m ρ c (Proc.devRef .tc main_v13)) = _
  rw [entry0_arg0, entry0_arg1, entry0_scales]

theorem exit0_arg2 (c : Dev nD) : W6 m ρ c (Proc.devRef .tc main_arg2) = m ((c : Thread nD τ).loc main_arg2) :=
  (W6_of_ne m ρ c main_arg2 (by decide)).trans (entry0_arg2 m ρ c)
theorem exit0_arg3 (c : Dev nD) : W6 m ρ c (Proc.devRef .tc main_arg3) = m ((c : Thread nD τ).loc main_arg3) :=
  (W6_of_ne m ρ c main_arg3 (by decide)).trans (entry0_arg3 m ρ c)
theorem exit0_arg4 (c : Dev nD) : W6 m ρ c (Proc.devRef .tc main_arg4) = m ((c : Thread nD τ).loc main_arg4) :=
  (W6_of_ne m ρ c main_arg4 (by decide)).trans (entry0_arg4 m ρ c)
theorem exit0_targetScales (c : Dev nD) : W6 m ρ c (Proc.devRef .tc main_v12) = scaleOf (m ((c : Thread nD τ).loc main_arg4)) :=
  (W6_of_ne m ρ c main_v12 (by decide)).trans (entry0_targetScales m ρ c)

/-! ## The second region's entry -/

/-- The second region finds the aggregate of the transformed features. -/
theorem entry1_agg (c : Dev nD) :
    W7 m ρ c (Proc.devRef .tc main_v24)
      = aggOf (Feat.featOf (m ((c : Thread nD τ).loc main_arg0)) (m ((c : Thread nD τ).loc main_arg1)) (scaleCol (m ((c : Thread nD τ).loc main_arg3))))
          (m ((c : Thread nD τ).loc main_arg3)) (m ((c : Thread nD τ).loc main_arg4)) := by
  show after hostOps1 (W6 m ρ c) (Proc.devRef .tc main_v24) = _
  rw [aggregate, exit0_arg3, exit0_arg4, exit0_feat]
  unfold aggOf wrapIdx
  rfl
/-- … the targets' scales as a column … -/
theorem entry1_scales (c : Dev nD) :
    W7 m ρ c (Proc.devRef .tc main_v25) = scaleCol (m ((c : Thread nD τ).loc main_arg4)) := by
  show after hostOps1 (W6 m ρ c) (Proc.devRef .tc main_v25) = _
  rw [column_targets, exit0_targetScales]
  unfold scaleCol
  rfl
/-- … and the bias as launched. -/
theorem entry1_bias (c : Dev nD) : W7 m ρ c (Proc.devRef .tc main_arg2) = m ((c : Thread nD τ).loc main_arg2) := by
  show after hostOps1 (W6 m ρ c) (Proc.devRef .tc main_arg2) = _
  rw [aggregate_keeps_arg2, exit0_arg2]

/-! ## The result -/

/-- THE RESULT BUFFER after the run, as a function of the arguments: the host's last three operations of the
    aggregate of the host's product, the targets' scales and the bias. -/
theorem result_eq (c : Dev nD) :
    W8 m ρ c (Proc.devRef .tc main_v26)
      = Out.outOf (aggOf (Feat.featOf (m ((c : Thread nD τ).loc main_arg0)) (m ((c : Thread nD τ).loc main_arg1)) (scaleCol (m ((c : Thread nD τ).loc main_arg3))))
            (m ((c : Thread nD τ).loc main_arg3)) (m ((c : Thread nD τ).loc main_arg4)))
          (scaleCol (m ((c : Thread nD τ).loc main_arg4))) (m ((c : Thread nD τ).loc main_arg2)) := by
  refine (W8_arr m ρ c 3).trans ((Out.out_array (V7 m ρ) c).trans ?_)
  show Out.outOf (W7 m ρ c (Proc.devRef .tc main_v24)) (W7 m ρ c (Proc.devRef .tc main_v25)) (W7 m ρ c (Proc.devRef .tc main_arg2)) = _
  rw [entry1_agg, entry1_scales, entry1_bias]

end Cert.KernelIdeal.Chain

end
-- ==== Proof.ScaleColumn.lean ====
/-
  A vector of 100000 entries as a [100000, 1] column, two spellings with one value: the row-major recast (what the
  kernel's program does before each region) and the broadcast of axis 0 into a new unit axis (what the reference does):
  entry (r, 0) of either is entry r of the vector.
-/
import proofs.«167073_j90331752169729_1_alg».proof.Proof.Gen.KernelIdeal
import proofs.«167073_j90331752169729_1_alg».proof.Proof.Gen.ReferenceIdeal
import Idealize.ShloMosaic.Lib.Pipeline.Value

set_option maxRecDepth 16384

noncomputable section

namespace Cert.KernelIdeal.Chain

open Cert.KernelIdeal Cert.KernelIdeal.Gen Idealize.ShloMosaic

/-- Entry r of the vector, r the row of the column entry `i`. -/
abbrev colRow (i : S100000x1.Idx) : S100000.Idx := fun a => match a with
  | ⟨0, _⟩ => ⟨(i 0).val, (i 0).isLt⟩

theorem column_eq_broadcast {α : Type} (v : S100000.Idx → α) :
    shapeCast S100000x1 v Facts₀.shapeCasts_S100000_S100000x1
      = broadcastInDim S100000x1 ![0] Cert.ReferenceIdeal.Gen.bcast_S100000_S100000x1_0 v := by
  funext i
  rw [broadcastInDim_apply _ Cert.ReferenceIdeal.Gen.bcast_S100000_S100000x1_0 v i (colRow i) (fun a => match a with
    | ⟨0, _⟩ => by show (i 0).val = if (100000 : Nat) = 1 then 0 else (i 0).val; rw [if_neg (by decide)])]
  refine shapeCast_apply v _ i (colRow i) ?_
  rw [Shape.rowMajor_val_one, Shape.rowMajor_val_two]
  have h1 : (i 1).val < 1 := (i 1).isLt
  show (i 0).val = (i 0).val * 1 + (i 1).val
  omega

end Cert.KernelIdeal.Chain

end
-- ==== Proof.RefResult.lean ====
/-
  The reference's result is the same function of the arguments as the kernel's program's.
  Read off its run, the reference computes agg · (n_in as a column, along the columns) + (b down the rows), where agg
  gathers at the wrapped sources and scatter-adds at the targets the rows of (h · n_out as a column, along the lanes) · w,
  and n = max(1, edge count)^(−1/2). These are the operations the kernel's program applies around and inside its two
  regions; the one difference in spelling is how a vector of scales becomes a column (a broadcast into a new unit axis
  here, a row-major recast there), and the two columns are equal.
-/
import proofs.«167073_j90331752169729_1_alg».proof.Proof.Gen.ReferenceIdeal.Run
import proofs.«167073_j90331752169729_1_alg».proof.Proof.HostChain
import proofs.«167073_j90331752169729_1_alg».proof.Proof.ScaleColumn

set_option maxRecDepth 16384

noncomputable section

namespace Cert.ReferenceIdeal.RefValue

open Cert.ReferenceIdeal Cert.ReferenceIdeal.Gen Idealize.ShloMosaic Idealize.ShloMosaic.TcCoe Idealize.SL.Sem

theorem reference_eq (x0 : FVec Ideal S100000x500 .f32) (x1 : FVec Ideal S500x7 .f32) (x2 : FVec Ideal S7 .f32)
    (x3 x4 : (⟨S3300000, .i32⟩ : BufTy).Contents (Elt Ideal)) :
    (addf (mulf (Host.scatterAdd scatter_S100000x7_S3300000x1_S3300000x7_1_0_0_1 (broadcastInDim S100000x7 ![] bcast_S_S100000x7 (constant S_ .f32 0x00000000#32)) (broadcastInDim S3300000x1 ![0] bcast_S3300000_S3300000x1_0 x4) (Host.gather gather_S100000x7_S3300000x1_S3300000x7_1_0_n_n_0_1_17 (Host.dotGeneral dot_S100000x500_S500x7_S100000x7_1_0_0_1_n_n none (mulf x0 (broadcastInDim S100000x500 ![0, 1] bcast_S100000x1_S100000x500_0_1 (broadcastInDim S100000x1 ![0] bcast_S100000_S100000x1_0 (Host.powf (maximumf (broadcastInDim S100000 ![] bcast_S_S100000 (id (constant S_ .f32 0x3F800000#32))) (Host.scatterAdd scatter_S100000_S3300000x1_S3300000_n_0_0_1 (broadcastInDim S100000 ![] bcast_S_S100000 (constant S_ .f32 0x00000000#32)) (broadcastInDim S3300000x1 ![0] bcast_S3300000_S3300000x1_0 x3) (broadcastInDim S3300000 ![] bcast_S_S3300000 (constant S_ .f32 0x3F800000#32)))) (broadcastInDim S100000 ![] bcast_S_S100000 (constant S_ .f32 0xBF000000#32)))))) x1) (broadcastInDim S3300000x1 ![0] bcast_S3300000_S3300000x1_0 (select (cmpi .slt x3 (broadcastInDim S3300000 ![] bcast_S_S3300000 (constantI S_ 32 0#32))) (addi x3 (broadcastInDim S3300000 ![] bcast_S_S3300000 (constantI S_ 32 100000#32))) x3)))) (broadcastInDim S100000x7 ![0, 1] bcast_S100000x1_S100000x7_0_1 (broadcastInDim S100000x1 ![0] bcast_S100000_S100000x1_0 (Host.powf (maximumf (broadcastInDim S100000 ![] bcast_S_S100000 (id (constant S_ .f32 0x3F800000#32))) (Host.scatterAdd scatter_S100000_S3300000x1_S3300000_n_0_0_1 (broadcastInDim S100000 ![] bcast_S_S100000 (constant S_ .f32 0x00000000#32)) (broadcastInDim S3300000x1 ![0] bcast_S3300000_S3300000x1_0 x4) (broadcastInDim S3300000 ![] bcast_S_S3300000 (constant S_ .f32 0x3F800000#32)))) (broadcastInDim S100000 ![] bcast_S_S100000 (constant S_ .f32 0xBF000000#32)))))) (broadcastInDim S100000x7 ![0, 1] bcast_S1x7_S100000x7_0_1 (broadcastInDim S1x7 ![1] bcast_S7_S1x7_1 x2)) : FVec Ideal S100000x7 .f32)
      = Cert.KernelIdeal.Out.outOf (Cert.KernelIdeal.Chain.aggOf (Cert.KernelIdeal.Feat.featOf x0 x1 (Cert.KernelIdeal.Chain.scaleCol x3)) x3 x4) (Cert.KernelIdeal.Chain.scaleCol x4) x2 := by
  unfold Cert.KernelIdeal.Out.outOf Cert.KernelIdeal.Chain.aggOf Cert.KernelIdeal.Feat.featOf Cert.KernelIdeal.Chain.scaleCol Cert.KernelIdeal.Chain.scaleOf Cert.KernelIdeal.Chain.wrapIdx
  rw [Cert.KernelIdeal.Chain.column_eq_broadcast, Cert.KernelIdeal.Chain.column_eq_broadcast]
  rfl

end Cert.ReferenceIdeal.RefValue

end
-- ==== Proof.lean ====
/-
  A graph convolution with both-sided degree normalisation, out = D_in^(−1/2) · A · D_out^(−1/2) · (h · w) + b, over
  100000 nodes and 3.3 million edges, as a program of two tiled kernels among host operations, against the same
  formula computed by host operations alone; equal over the extended reals for every input.

  Both programs count the edges at each node by sources and by targets, clip the counts below at one and raise them
  to the power −1/2 (the nodes' scales n_out, n_in), with the same operations. The first kernel computes, 5000 rows at a
  time, (h · n_out) · w: the row scale broadcast along the lanes, the two operands narrowed to bf16 (the identity on
  extended reals) and multiplied into a zero accumulator (the plain sum over the 500 lanes); the reference's one
  dot_general of (h · n_out) with w has the same entries (Proof/FeatTile.lean, Proof/FeatArray.lean). Both programs then
  gather the rows at the (wrapped) sources and scatter-add them at the targets, again with the same operations. The
  second kernel computes, 5000 rows at a time, agg · n_in + b, entry by entry what the reference's last three
  operations compute (Proof/OutTile.lean, Proof/OutArray.lean). No law that needs finiteness is used: the two sides
  are the same sums and products in the same order, so the precondition is never opened.

  The kernel's program's run with its result buffer named is the frame's launch called again (Proof/KernelRun.lean);
  the host operations between the boundaries are read in Proof/HostStretches.lean and composed in
  Proof/HostChain.lean; the reference's run is read in Proof/RefResult.lean. The frames of the two kernel programs and
  the reference's are the generated ones; no operation was rewritten by the idealisation, so there is nothing to
  preserve.
-/
import proofs.«167073_j90331752169729_1_alg».proof.Defs
import proofs.«167073_j90331752169729_1_alg».proof.Proof.Gen.Kernel
import proofs.«167073_j90331752169729_1_alg».proof.Proof.Gen.Kernel.Frame
import proofs.«167073_j90331752169729_1_alg».proof.Proof.Gen.KernelIdeal
import proofs.«167073_j90331752169729_1_alg».proof.Proof.Gen.KernelIdeal.Frame
import proofs.«167073_j90331752169729_1_alg».proof.Proof.Gen.ReferenceIdeal
import proofs.«167073_j90331752169729_1_alg».proof.Proof.Gen.Pre_finite_inputs
import proofs.«167073_j90331752169729_1_alg».proof.Proof.Gen.ReferenceIdeal.Run
import proofs.«167073_j90331752169729_1_alg».proof.Proof.Gen.ReferenceIdeal.Read
import proofs.«167073_j90331752169729_1_alg».proof.Proof.KernelRun
import proofs.«167073_j90331752169729_1_alg».proof.Proof.HostChain
import proofs.«167073_j90331752169729_1_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result at ONE function of the arguments: the kernel's program by its run and the
    boundaries' contents read back to the arguments, the reference by its run, the arguments agreeing. -/
theorem algebraic : Cert.algebraic_KernelIdeal_ReferenceIdeal := by
  intro m ρ m' ρ' _ hagree
  refine ⟨fun c => Cert.KernelIdeal.Gen.W8 m ρ c (Proc.devRef .tc Cert.KernelIdeal.main_v26), Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.RefValue.reference_eq _ _ _ _ _).trans (Cert.KernelIdeal.Chain.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
